-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024 : Shape := ⟨3, ![8, 3, 1024]⟩
abbrev S8x3x16384 : Shape := ⟨3, ![8, 3, 16384]⟩
abbrev S_ : Shape := ⟨0, ![]⟩

class Facts : Prop where
  bcast_S_S8x3x1024 : S_.BroadcastsInDim S8x3x1024 (![] : Fin 0 → Fin S8x3x1024.rank)
  reducesTo_S8x3x1024_S_d0_1_2 : S8x3x1024.ReducesTo [0, 1, 2] S_
  h_S_ : 0 < S_.numel
  bcast_S_S8x3x16384 : S_.BroadcastsInDim S8x3x16384 (![] : Fin 0 → Fin S8x3x16384.rank)
  reducesTo_S8x3x16384_S_d0_1_2 : S8x3x16384.ReducesTo [0, 1, 2] S_

variable [Facts]

def fn {F : FTy → Type} [FloatOps F] (main_arg0 : FVec F S8x3x1024 .f32) (main_arg1 : FVec F S8x3x16384 .f32) : IVec S_ 1 :=
  let main_v0 : FVec F S8x3x1024 .f32 := Host.absf main_arg0
  let main_cst : FVec F S_ .f32 := constant S_ .f32 0x7F800000#32
  let main_v1 : FVec F S8x3x1024 .f32 := broadcastInDim S8x3x1024 ![] bcast_S_S8x3x1024 main_cst
  let main_v2 : IVec S8x3x1024 1 := cmpf .olt main_v0 main_v1
  let main_c : IVec S_ 1 := constantI S_ 1 1#1
  let main_v3 : IVec S_ 1 := (fun x v => Host.reduce IntOp.andi x v reducesTo_S8x3x1024_S_d0_1_2 h_S_) main_v2 main_c
  let main_v4 : FVec F S8x3x16384 .f32 := Host.absf main_arg1
  let main_cst_0 : FVec F S_ .f32 := constant S_ .f32 0x7F800000#32
  let main_v5 : FVec F S8x3x16384 .f32 := broadcastInDim S8x3x16384 ![] bcast_S_S8x3x16384 main_cst_0
  let main_v6 : IVec S8x3x16384 1 := cmpf .olt main_v4 main_v5
  let main_c_1 : IVec S_ 1 := constantI S_ 1 1#1
  let main_v7 : IVec S_ 1 := (fun x v => Host.reduce IntOp.andi x v reducesTo_S8x3x16384_S_d0_1_2 h_S_) main_v6 main_c_1
  let main_v8 : IVec S_ 1 := andi main_v3 main_v7
  main_v8
-- ==== Kernel.lean ====
abbrev S8x3x1024 : Shape := ⟨3, ![8, 3, 1024]⟩
abbrev S8x3x16384 : Shape := ⟨3, ![8, 3, 16384]⟩
abbrev S8x1024x1 : Shape := ⟨3, ![8, 1024, 1]⟩
abbrev S1x3x256 : Shape := ⟨3, ![1, 3, 256]⟩
abbrev S1x3x2048 : Shape := ⟨3, ![1, 3, 2048]⟩
abbrev S1x256x1 : Shape := ⟨3, ![1, 256, 1]⟩
abbrev S3x256 : Shape := ⟨2, ![3, 256]⟩
abbrev S3x2048 : Shape := ⟨2, ![3, 2048]⟩
abbrev S256x3 : Shape := ⟨2, ![256, 3]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S8x1024 : Shape := ⟨2, ![8, 1024]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S8x3x1024, .f32⟩
  | .hbm, ⟨1, _⟩ => ⟨S8x3x16384, .f32⟩
  | .hbm, ⟨2, _⟩ => ⟨S8x1024x1, .f32⟩
  | .hbm, ⟨3, _⟩ => ⟨S8x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x3x256, .f32⟩
  | .local _ .vmem, ⟨1, _⟩ => ⟨S1x3x256, .f32⟩
  | .local _ .vmem, ⟨2, _⟩ => ⟨S1x3x2048, .f32⟩
  | .local _ .vmem, ⟨3, _⟩ => ⟨S1x3x2048, .f32⟩
  | .local _ .vmem, ⟨4, _⟩ => ⟨S1x256x1, .f32⟩
  | .local _ .vmem, ⟨5, _⟩ => ⟨S1x256x1, .f32⟩
  | _, _ => ⟨S8x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  transposes_S3x256_p1_0_S256x3 : S3x256.Transposes [1, 0] S256x3
  bitsLt_bf16_f32 : FTy.bits .bf16 < FTy.bits .f32
  reduces_S256x3_S256 : S256x3.Reduces [1] S256
  shapeCasts_S256_S256x1 : S256.ShapeCasts S256x1
  reduces_S3x2048_S2048 : S3x2048.Reduces [0] S2048
  shapeCasts_S2048_S1x2048 : S2048.ShapeCasts S1x2048
  broadcasts_S256x1_S256x2048 : S256x1.Broadcasts S256x2048
  broadcasts_S1x2048_S256x2048 : S1x2048.Broadcasts S256x2048
  reduces_S256x2048_S256 : S256x2048.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  shapeCasts_S256x1_S1x256x1 : S256x1.ShapeCasts S1x256x1
  shapeCasts_S8x1024x1_S8x1024 : S8x1024x1.ShapeCasts S8x1024
  reducesTo_S8x1024_S_d0_1 : S8x1024.ReducesTo [0, 1] S_
  h_S_ : 0 < S_.numel
  dot_S256x3_S3x2048_S256x2048_1_0_0_1_n_n_wf : DotDims.WF S256x3 S3x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256.size a ≤ S8x3x1024.size a
  hwx0_0 : ∀ i : grid0.Coords, EltTy.bits .f32 = 32 ∨ (Rect.block (s := S8x3x1024) S1x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x16384.size a
  hwx0_1 : ∀ i : grid0.Coords, EltTy.bits .f32 = 32 ∨ (Rect.block (s := S8x3x16384) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x1024x1.size a
  hwx0_2 : ∀ i : grid0.Coords, EltTy.bits .f32 = 32 ∨ (Rect.block (s := S8x1024x1) S1x256x1.size (cc0_transform_2 i) (hinb0_2 i)).WholeWords (EltTy.packing .f32)

variable [Facts₀]

def dot_S256x3_S3x2048_S256x2048_1_0_0_1_n_n : DotDims S256x3 S3x2048 S256x2048 where
  lhsContracting := [1]
  rhsContracting := [0]
  lhsNonContracting := [0]
  rhsNonContracting := [1]
  lhsBatch := []
  rhsBatch := []
  wf := dot_S256x3_S3x2048_S256x2048_1_0_0_1_n_n_wf

abbrev win0_0 : Pipeline.Window sig grid0 :=
  Pipeline.Window.ofSpec (Memref.whole main_arg0) S1x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x1024 : Shape := ⟨3, ![8, 3, 1024]⟩
abbrev S8x3x16384 : Shape := ⟨3, ![8, 3, 16384]⟩
abbrev S_ : Shape := ⟨0, ![]⟩
abbrev S8x1024 : Shape := ⟨2, ![8, 1024]⟩
abbrev S8x16384 : Shape := ⟨2, ![8, 16384]⟩
abbrev S8x1024x16384 : Shape := ⟨3, ![8, 1024, 16384]⟩
abbrev S8x1024x1 : Shape := ⟨3, ![8, 1024, 1]⟩
abbrev S8x1x16384 : Shape := ⟨3, ![8, 1, 16384]⟩

abbrev nBuf : Space → Nat
  | .hbm => 28
  | .vmem => 0
  | .smem => 0
  | _ => 0

abbrev bufTy : (tb : Table) → Fin (tcTables nBuf tb) → BufTy
  | .hbm, ⟨0, _⟩ => ⟨S8x3x1024, .f32⟩
  | .hbm, ⟨1, _⟩ => ⟨S8x3x16384, .f32⟩
  | .hbm, ⟨2, _⟩ => ⟨S8x3x1024, .f32⟩
  | .hbm, ⟨3, _⟩ => ⟨S_, .f32⟩
  | .hbm, ⟨4, _⟩ => ⟨S8x1024, .f32⟩
  | .hbm, ⟨5, _⟩ => ⟨S8x3x16384, .f32⟩
  | .hbm, ⟨6, _⟩ => ⟨S_, .f32⟩
  | .hbm, ⟨7, _⟩ => ⟨S8x16384, .f32⟩
  | .hbm, ⟨8, _⟩ => ⟨S8x1024x16384, .f32⟩
  | .hbm, ⟨9, _⟩ => ⟨S8x1024x1, .f32⟩
  | .hbm, ⟨10, _⟩ => ⟨S8x1x16384, .f32⟩
  | .hbm, ⟨11, _⟩ => ⟨S8x1024x16384, .f32⟩
  | .hbm, ⟨12, _⟩ => ⟨S8x1024x16384, .f32⟩
  | .hbm, ⟨13, _⟩ => ⟨S8x1024x16384, .f32⟩
  | .hbm, ⟨14, _⟩ => ⟨S_, .f32⟩
  | .hbm, ⟨15, _⟩ => ⟨S8x1024x16384, .f32⟩
  | .hbm, ⟨16, _⟩ => ⟨S8x1024x16384, .f32⟩
  | .hbm, ⟨17, _⟩ => ⟨S8x1024x16384, .f32⟩
  | .hbm, ⟨18, _⟩ => ⟨S_, .f32⟩
  | .hbm, ⟨19, _⟩ => ⟨S8x1024x16384, .f32⟩
  | .hbm, ⟨20, _⟩ => ⟨S8x1024x16384, .f32⟩
  | .hbm, ⟨21, _⟩ => ⟨S8x1024x16384, .f32⟩
  | .hbm, ⟨22, _⟩ => ⟨S_, .f32⟩
  | .hbm, ⟨23, _⟩ => ⟨S8x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S8x3x1024_S8x1024_d1 : S8x3x1024.ReducesTo [1] S8x1024
  h_S_ : 0 < S_.numel
  reducesTo_S8x3x16384_S8x16384_d1 : S8x3x16384.ReducesTo [1] S8x16384
  bcast_S8x1024_S8x1024x1_0_1 : S8x1024.BroadcastsInDim S8x1024x1 (![0, 1] : Fin 2 → Fin S8x1024x1.rank)
  bcast_S8x16384_S8x1x16384_0_2 : S8x16384.BroadcastsInDim S8x1x16384 (![0, 2] : Fin 2 → Fin S8x1x16384.rank)
  bcast_S8x1024x1_S8x1024x16384_0_1_2 : S8x1024x1.BroadcastsInDim S8x1024x16384 (![0, 1, 2] : Fin 3 → Fin S8x1024x16384.rank)
  bcast_S8x1x16384_S8x1024x16384_0_1_2 : S8x1x16384.BroadcastsInDim S8x1024x16384 (![0, 1, 2] : Fin 3 → Fin S8x1024x16384.rank)
  bcast_S_S8x1024x16384 : S_.BroadcastsInDim S8x1024x16384 (![] : Fin 0 → Fin S8x1024x16384.rank)
  reducesTo_S8x1024x16384_S8x1024_d2 : S8x1024x16384.ReducesTo [2] S8x1024
  reducesTo_S8x1024_S_d0_1 : S8x1024.ReducesTo [0, 1] S_
  dot_S8x3x1024_S8x3x16384_S8x1024x16384_1_1_2_2_0_0_wf : DotDims.WF S8x3x1024 S8x3x16384 S8x1024x16384 [1] [1] [2] [2] [0] [0]

variable [Facts₀]

def dot_S8x3x1024_S8x3x16384_S8x1024x16384_1_1_2_2_0_0 : DotDims S8x3x1024 S8x3x16384 S8x1024x16384 where
  lhsContracting := [1]
  rhsContracting := [1]
  lhsNonContracting := [2]
  rhsNonContracting := [2]
  lhsBatch := [0]
  rhsBatch := [0]
  wf := dot_S8x3x1024_S8x3x16384_S8x1024x16384_1_1_2_2_0_0_wf

class Facts : Prop extends Facts₀ where

variable [Facts]
-- ==== Proof.Pieces.lean ====
/-
  What one grid point leaves in the output block, as the body's arithmetic of the blocks it read.

  At a point that begins a sweep (the reduction coordinate is zero) the body first fills the output block
  with the start value and then stores the minimum of that block and the tile's row minima; at every other
  point it stores the minimum of the block left by the point before and the tile's row minima.
-/
import proofs.«106802_j3204045603274_1_alg».proof.Proof.Gen.KernelIdeal.Frame
import Idealize.ShloMosaic.Lib.Pipeline.Value
import Idealize.ShloMosaic.Lib.Tactic

noncomputable section

namespace Cert.KernelIdeal.Sweep

open Idealize.ShloMosaic Idealize.ShloMosaic.TcCoe Idealize.SL.Sem
open Cert.KernelIdeal Cert.KernelIdeal.Gen

variable {F : FTy → Type} [FloatOps F]

theorem offsets_zero : (![0, 0, 0] : Fin 3 → Nat) = fun _ => 0 := funext fun a => by fin_cases a <;> rfl

/-- A point inside a sweep: the block the point before left, against this tile's row minima. -/
theorem left_inside (c : Dev nD) (i : grid0.Coords) (a3 : Memref sig .tc .vmem S1x3x256 .f32) (h3 : a3.IsWhole)
    (a4 : Memref sig .tc .vmem S1x3x2048 .f32) (h4 : a4.IsWhole) (a5 : Memref sig .tc .vmem S1x256x1 .f32) (h5 : a5.IsWhole)
    (hc : ¬cond0_0 i) (x0 : Vec F S1x3x256 .f32) (x1 : Vec F S1x3x2048 .f32) (xo : Vec F S1x256x1 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero offsets_zero]
  simp only [View.readAt_eq_ld, h3.read_unread, h4.read_unread, h5.read_unread,
    View.ld_unit_zero (S := S1x3x256) offsets_zero, View.ld_unit_zero (S := S1x3x2048) offsets_zero,
    View.ld_unit_zero (S := S1x256x1) offsets_zero]

/-- A point that begins a sweep: the start value everywhere, against this tile's row minima. -/
theorem left_first (c : Dev nD) (i : grid0.Coords) (a3 : Memref sig .tc .vmem S1x3x256 .f32) (h3 : a3.IsWhole)
    (a4 : Memref sig .tc .vmem S1x3x2048 .f32) (h4 : a4.IsWhole) (a5 : Memref sig .tc .vmem S1x256x1 .f32) (h5 : a5.IsWhole)
    (hc : cond0_0 i) (x0 : Vec F S1x3x256 .f32) (x1 : Vec F S1x3x2048 .f32) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x256x1) offsets_zero, View.readCov_unit_zero (S := S1x256x1) _ offsets_zero]
  simp only [View.readAt_eq_ld, h3.read_unread, h4.read_unread,
    View.ld_unit_zero (S := S1x3x256) offsets_zero, View.ld_unit_zero (S := S1x3x2048) offsets_zero,
    View.ld_unit_zero (S := S1x256x1) offsets_zero, View.readCov_unit_zero (S := S1x256x1) _ offsets_zero]

end Cert.KernelIdeal.Sweep

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.Spec.lean ====
/-
  The nearest-point distance, as mathematics on the extended reals.

  A point is given by its three coordinates.  The distance of two points `a` and `p` is taken by the
  expansion |a|² + |p|² − 2·(a·p), clamped at zero before the square root.  For a fixed point `a` the
  distance to the nearest of 16384 points is the minimum of these distances; the minimum over all of
  them is reached by sweeping eight consecutive runs of 2048 and keeping a running minimum, because a
  minimum does not depend on the grouping or on the order of its arguments: a value lies below the
  running minimum exactly when it lies below the start value and below every argument swept so far.
-/
import Idealize.ShloMosaic.PureOps.Ideal.Laws
import Mathlib.Data.Finset.Fold

namespace Cert.NearestPoint

open Idealize.ShloMosaic

/-- The distance of the points `a` and `p`: the root of |a|² + |p|² − 2·(a·p), clamped at zero from below. -/
noncomputable def pointDist (a p : Fin 3 → EReal) : EReal :=
  Ideal.sqrt (max (((∑ k, a k * a k) + (∑ k, p k * p k)) - Ideal.ofBits .f32 0x40000000#32 * (∑ k, a k * p k))
    (Ideal.ofBits .f32 0x00000000#32))

/-- What a running minimum starts from (the value every minimum below is taken against first). -/
noncomputable abbrev start : EReal := Ideal.ofBits .f32 0x7F800000#32

/-- The argument number `q` of run `k`. -/
def inRun (k : ℕ) (hk : k < 8) (q : Fin 2048) : Fin 16384 := ⟨k * 2048 + q.val, by have := q.isLt; omega⟩

theorem inRun_val (k : ℕ) (hk : k < 8) (q : Fin 2048) : (inRun k hk q).val = k * 2048 + q.val := rfl

/-- Every argument whose number divided by 2048 is `k` is one of run `k`. -/
theorem exists_inRun (k : ℕ) (hk : k < 8) (n : Fin 16384) (h : n.val / 2048 = k) : ∃ q, inRun k hk q = n :=
  ⟨⟨n.val % 2048, Nat.mod_lt _ (by decide)⟩, Fin.ext (by
    rw [inRun_val]; show k * 2048 + n.val % 2048 = n.val; omega)⟩

/-- The minimum of `f` over run `k` alone. -/
noncomputable def run (f : Fin 16384 → EReal) (k : ℕ) (hk : k < 8) : EReal :=
  (Finset.univ : Finset (Fin 2048)).fold min start fun q => f (inRun k hk q)

/-- The running minimum of `f` after runs `0` to `k`. -/
noncomputable def upTo (f : Fin 16384 → EReal) : (k : ℕ) → k < 8 → EReal
  | 0, h => min start (run f 0 h)
  | k + 1, h => min (upTo f k (Nat.lt_of_succ_lt h)) (run f (k + 1) h)

theorem upTo_first (f : Fin 16384 → EReal) (k : ℕ) (hk : k < 8) (h0 : k = 0) :
    upTo f k hk = min start (run f k hk) := by
  subst h0; rfl

theorem upTo_next (f : Fin 16384 → EReal) (k k' : ℕ) (hk : k < 8) (hk' : k' < 8) (e : k' = k + 1) :
    upTo f k' hk' = min (upTo f k hk) (run f k' hk') := by
  subst e; rfl

/-- Below a run's minimum: below the start value and below each of the run's arguments. -/
theorem le_run_iff (f : Fin 16384 → EReal) (k : ℕ) (hk : k < 8) (c : EReal) :
    c ≤ run f k hk ↔ c ≤ start ∧ ∀ q : Fin 2048, c ≤ f (inRun k hk q) := by
  unfold run
  rw [Finset.le_fold_min]
  exact and_congr_right fun _ => ⟨fun h q => h q (Finset.mem_univ q), fun h q _ => h q⟩

/-- The first run: below the start value and below every argument of run zero. -/
theorem le_upTo_base (f : Fin 16384 → EReal) (k : ℕ) (hk : k < 8) (h0 : k = 0) (c : EReal) :
    c ≤ upTo f k hk ↔ c ≤ start ∧ ∀ n : Fin 16384, n.val / 2048 ≤ k → c ≤ f n := by
  rw [upTo_first f k hk h0, le_min_iff, le_run_iff]
  constructor
  · rintro ⟨hs, -, h⟩
    refine ⟨hs, fun n hn => ?_⟩
    obtain ⟨q, rfl⟩ := exists_inRun k hk n (by omega)
    exact h q
  · rintro ⟨hs, h⟩
    exact ⟨hs, hs, fun q => h _ (by rw [inRun_val]; have := q.isLt; omega)⟩

/-- One more run: the arguments swept so far are those of the earlier runs and those of the new one. -/
theorem le_upTo_step (f : Fin 16384 → EReal) (k k' : ℕ) (hk : k < 8) (hk' : k' < 8) (e : k' = k + 1) (c : EReal)
    (ih : c ≤ upTo f k hk ↔ c ≤ start ∧ ∀ n : Fin 16384, n.val / 2048 ≤ k → c ≤ f n) :
    c ≤ upTo f k' hk' ↔ c ≤ start ∧ ∀ n : Fin 16384, n.val / 2048 ≤ k' → c ≤ f n := by
  rw [upTo_next f k k' hk hk' e, le_min_iff, ih, le_run_iff]
  constructor
  · rintro ⟨⟨hs, h1⟩, -, h2⟩
    refine ⟨hs, fun n hn => ?_⟩
    by_cases hlt : n.val / 2048 ≤ k
    · exact h1 n hlt
    · obtain ⟨q, rfl⟩ := exists_inRun k' hk' n (by omega)
      exact h2 q
  · rintro ⟨hs, h⟩
    exact ⟨⟨hs, fun n hn => h n (by omega)⟩, hs, fun q => h _ (by rw [inRun_val]; have := q.isLt; omega)⟩

/-- Below the running minimum after run `k`: below the start value and below every argument of runs `0` to `k`. -/
theorem le_upTo_iff (f : Fin 16384 → EReal) : ∀ (k : ℕ) (hk : k < 8) (c : EReal),
    c ≤ upTo f k hk ↔ c ≤ start ∧ ∀ n : Fin 16384, n.val / 2048 ≤ k → c ≤ f n
  | 0, hk, c => le_upTo_base f 0 hk rfl c
  | k + 1, hk, c => le_upTo_step f k (k + 1) (Nat.lt_of_succ_lt hk) hk rfl c (le_upTo_iff f k (Nat.lt_of_succ_lt hk) c)

/-- After the eighth run the running minimum is the minimum over all 16384 arguments. -/
theorem upTo_last (f : Fin 16384 → EReal) (k : ℕ) (hk : k < 8) (h7 : k = 7) :
    upTo f k hk = (Finset.univ : Finset (Fin 16384)).fold min start f := by
  refine eq_of_forall_le_iff fun c => ?_
  rw [le_upTo_iff, Finset.le_fold_min]
  exact and_congr_right fun _ => ⟨fun h n _ => h n (by have := n.isLt; omega), fun h n _ => h n (Finset.mem_univ n)⟩

end Cert.NearestPoint
-- ==== Proof.Tile.lean ====
/-
  The body's arithmetic read at one row of the output block.

  Row `r` of the block the body stores holds the minimum of what it found there and, over the 2048 points
  of the tile, of the distance between keypoint `r` of the keypoint block and that point: the three
  squares of each side summed along the coordinate axis, the three products summed by the matrix product,
  and the change of float format before the product the identity on extended reals.
-/
import proofs.«106802_j3204045603274_1_alg».proof.Proof.Gen.KernelIdeal.Skeleton
import proofs.«106802_j3204045603274_1_alg».proof.Proof.LibTile
import proofs.«106802_j3204045603274_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sweep

open Idealize.ShloMosaic Idealize.ShloMosaic.ValueIdx
open Cert.KernelIdeal Cert.KernelIdeal.Gen Cert.NearestPoint

/-! ## A minimum along one axis -/

/-- A minimum taken along one axis, read at the ideal values: the fold of `min` from the accumulator's
    value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row minima of a [256, 2048] tile: at row `r`, the fold of `min` over the 2048 columns. -/
theorem rowMin_apply (src : FVec Ideal S256x2048 .f32) (h : S256x2048.Reduces [1] S256) (hφ : FKind.Formats .f32)
    (hacc : (0x7F800000#32 : BitVec 32) = FKind.minimumf.neutral .f32 hφ) (r : Fin 256) :
    multiReduction (F := Ideal) .minimumf [1] S256 src 0x7F800000#32 h hφ hacc (ix1 r)
      = (Finset.univ : Finset (Fin 2048)).fold min start fun q => src (ix2 r q) := by
  refine (multiReduction_minimumf_single src _ h hφ hacc (ix1 r)).trans ?_
  refine congrArg (fun f => (Finset.univ : Finset (Fin 2048)).fold min start f) (funext fun q => ?_)
  exact congrArg src (funext fun ax => Fin.ext (by
    match ax with
    | ⟨0, _⟩ => rfl
    | ⟨1, _⟩ => rfl))

/-! ## The matrix product of the transposed keypoint block and the point block -/

theorem lhs_row (j : S256x2048.Idx) (q : dot_S256x3_S3x2048_S256x2048_1_0_0_1_n_n.contr.Idx) :
    (dot_S256x3_S3x2048_S256x2048_1_0_0_1_n_n.lhsIdx j q 0).val = (j 0).val := by
  unfold DotDims.lhsIdx
  rw [dif_neg (show ¬(0 : Fin S256x3.rank) ∈ dot_S256x3_S3x2048_S256x2048_1_0_0_1_n_n.lhsBatch by decide), dif_pos (show (0 : Fin S256x3.rank) ∈ dot_S256x3_S3x2048_S256x2048_1_0_0_1_n_n.lhsNonContracting by decide)]
  rfl
theorem lhs_contr (j : S256x2048.Idx) (q : dot_S256x3_S3x2048_S256x2048_1_0_0_1_n_n.contr.Idx) :
    (dot_S256x3_S3x2048_S256x2048_1_0_0_1_n_n.lhsIdx j q 1).val = (q ⟨0, by decide⟩).val :=
  dot_S256x3_S3x2048_S256x2048_1_0_0_1_n_n.lhsIdx_val_of_single rfl j q
theorem rhs_contr (j : S256x2048.Idx) (q : dot_S256x3_S3x2048_S256x2048_1_0_0_1_n_n.contr.Idx) :
    (dot_S256x3_S3x2048_S256x2048_1_0_0_1_n_n.rhsIdx j q 0).val = (q ⟨0, by decide⟩).val :=
  dot_S256x3_S3x2048_S256x2048_1_0_0_1_n_n.rhsIdx_val_of_single rfl j q
theorem rhs_col (j : S256x2048.Idx) (q : dot_S256x3_S3x2048_S256x2048_1_0_0_1_n_n.contr.Idx) :
    (dot_S256x3_S3x2048_S256x2048_1_0_0_1_n_n.rhsIdx j q 1).val = (j 1).val := by
  unfold DotDims.rhsIdx
  rw [dif_neg (show ¬(1 : Fin S3x2048.rank) ∈ dot_S256x3_S3x2048_S256x2048_1_0_0_1_n_n.rhsBatch by decide), dif_pos (show (1 : Fin S3x2048.rank) ∈ dot_S256x3_S3x2048_S256x2048_1_0_0_1_n_n.rhsNonContracting by decide)]
  rfl

/-- The product into the zero accumulator, at row `r` and column `q`: the sum over the three coordinates of
    the left factor at (r, k) times the right factor at (k, q). -/
theorem product_apply {φ₁ φ₂ : FTy} (lhs : FVec Ideal S256x3 φ₁) (rhs : FVec Ideal S3x2048 φ₂) (r : Fin 256) (q : Fin 2048) :
    matmul (F := Ideal) dot_S256x3_S3x2048_S256x2048_1_0_0_1_n_n none lhs rhs (constant (F := Ideal) S256x2048 .f32 0x00000000#32) (ix2 r q)
      = ∑ k : Fin 3, lhs (ix2 r k) * rhs (ix2 k q) := by
  refine (Ideal.matmul_constant_zero_apply dot_S256x3_S3x2048_S256x2048_1_0_0_1_n_n none lhs rhs (ix2 r q)).trans ?_
  rw [← Equiv.sum_comp (contrEquiv1 dot_S256x3_S3x2048_S256x2048_1_0_0_1_n_n 3 rfl rfl).symm]
  refine Finset.sum_congr rfl fun k _ => ?_
  have hk := contrEquiv1_symm_val dot_S256x3_S3x2048_S256x2048_1_0_0_1_n_n 3 rfl rfl k
  have el : dot_S256x3_S3x2048_S256x2048_1_0_0_1_n_n.lhsIdx (ix2 r q) ((contrEquiv1 dot_S256x3_S3x2048_S256x2048_1_0_0_1_n_n 3 rfl rfl).symm k) = ix2 r k := funext fun a => Fin.ext (by
    match a with
    | ⟨0, _⟩ => exact lhs_row _ _
    | ⟨1, _⟩ => exact (lhs_contr _ _).trans hk)
  have er : dot_S256x3_S3x2048_S256x2048_1_0_0_1_n_n.rhsIdx (ix2 r q) ((contrEquiv1 dot_S256x3_S3x2048_S256x2048_1_0_0_1_n_n 3 rfl rfl).symm k) = ix2 k q := funext fun a => Fin.ext (by
    match a with
    | ⟨0, _⟩ => exact (rhs_contr _ _).trans hk
    | ⟨1, _⟩ => exact rhs_col _ _)
  rw [el, er]

/-! ## The stored block at a row -/

/-- Coordinate `k` of keypoint `r`, as the transposed keypoint block holds it. -/
theorem kp_entry (x0 : Vec Ideal S1x3x256 .f32) (r : Fin 256) (k : Fin 3) :
    transpose S256x3 [1, 0] (shapeCast S3x256 x0 shapeCasts_S1x3x256_S3x256) transposes_S3x256_p1_0_S256x3 (ix2 r k)
      = x0 (ix3 (0 : Fin 1) k r) :=
  (transpose_ix2_apply (shapeCast S3x256 x0 shapeCasts_S1x3x256_S3x256) transposes_S3x256_p1_0_S256x3 r k).trans
    (shapeCast_1ab_ab_apply x0 shapeCasts_S1x3x256_S3x256 k r)

/-- Coordinate `k` of point `q` of the point block. -/
theorem pc_entry (x1 : Vec Ideal S1x3x2048 .f32) (k : Fin 3) (q : Fin 2048) :
    shapeCast S3x2048 x1 shapeCasts_S1x3x2048_S3x2048 (ix2 k q) = x1 (ix3 (0 : Fin 1) k q) :=
  shapeCast_1ab_ab_apply x1 shapeCasts_S1x3x2048_S3x2048 k q

/-- The block a sweep starts from holds the start value everywhere. -/
theorem fill_apply (i : S1x256x1.Idx) : k0_pay1 (F := Ideal) i = start := rfl

/-- Row `r` of the stored block: what was there, against the minimum over the tile's points of the distance
    from keypoint `r`. -/
theorem stored_apply (x0 : Vec Ideal S1x3x256 .f32) (x1 : Vec Ideal S1x3x2048 .f32) (prev : Vec Ideal S1x256x1 .f32) (r : Fin 256) :
    k0_pay2 (F := Ideal) x0 x1 prev (ix3 (0 : Fin 1) r (0 : Fin 1))
      = min (prev (ix3 (0 : Fin 1) r (0 : Fin 1)))
          ((Finset.univ : Finset (Fin 2048)).fold min start fun q =>
            pointDist (fun k => x0 (ix3 (0 : Fin 1) k r)) (fun k => x1 (ix3 (0 : Fin 1) k q))) := by
  unfold k0_pay2
  refine congrArg₂ min ?_ ?_
  · exact congrFun (shapeCast_self prev _) _
  · refine (shapeCast_ab_1ab_apply _ _ (0 : Fin 1) r (0 : Fin 1)).trans ?_
    refine (Cert.Tile.shapeCast_a_a1_apply _ _ r (0 : Fin 1)).trans ?_
    refine (rowMin_apply _ _ _ _ r).trans ?_
    refine congrArg (fun f => (Finset.univ : Finset (Fin 2048)).fold min start f) (funext fun q => ?_)
    show Ideal.sqrt (max (_ - _ * _) _) = _
    unfold pointDist
    refine congrArg Ideal.sqrt (congrArg₂ max (congrArg₂ (· - ·) (congrArg₂ (· + ·) ?_ ?_) (congrArg₂ (· * ·) rfl ?_)) rfl)
    · refine (Cert.Tile.broadcastTo_a1_ab_apply _ _ r q).trans ?_
      refine (Cert.Tile.shapeCast_a_a1_apply _ _ r (0 : Fin 1)).trans ?_
      refine (Cert.Tile.rowSum_apply _ _ _ _ r).trans (Finset.sum_congr rfl fun k _ => ?_)
      refine (mulf_apply _ _ _).trans ?_
      exact congrArg₂ (· * ·) (kp_entry x0 r k) (kp_entry x0 r k)
    · refine (broadcastTo_1b_ab_apply _ _ r q).trans ?_
      refine (shapeCast_a_1a_apply _ _ (0 : Fin 1) q).trans ?_
      refine (Cert.Tile.colSum_apply _ _ _ _ q).trans (Finset.sum_congr rfl fun k _ => ?_)
      refine (mulf_apply _ _ _).trans ?_
      exact congrArg₂ (· * ·) (pc_entry x1 k q) (pc_entry x1 k q)
    · refine (product_apply _ _ r q).trans (Finset.sum_congr rfl fun k _ => ?_)
      exact congrArg₂ (· * ·) ((truncf_apply (ψ := .bf16) _ bitsLt_bf16_f32 _).trans (kp_entry x0 r k))
        ((truncf_apply (ψ := .bf16) _ bitsLt_bf16_f32 _).trans (pc_entry x1 k q))

end Cert.KernelIdeal.Sweep

end
-- ==== Proof.Blocks.lean ====
/-
  Where a grid point's blocks sit in the arrays.

  The grid is 8 × 4 × 8: point `t` is batch `t / 32`, keypoint tile `t / 8 % 4`, point tile `t % 8`.  Its
  keypoint block is the 256 keypoints from `(t / 8 % 4) · 256` of that batch, its point block the 2048
  points from `(t % 8) · 2048` of the same batch, and its output block the 256 rows from
  `(t / 8 % 4) · 256` of that batch.
-/
import proofs.«106802_j3204045603274_1_alg».proof.Proof.Gen.KernelIdeal.Frame
import Idealize.ShloMosaic.Lib.Pipeline.Value
import Idealize.ShloMosaic.Lib.ValueIdx

noncomputable section

namespace Cert.KernelIdeal.Sweep

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The keypoint and point arrays as the region finds them, and a point's blocks of them, at their literal types. -/
abbrev kpArr (c : Dev nD) : Vec F S8x3x1024 .f32 := V m c main_arg0
abbrev pcArr (c : Dev nD) : Vec F S8x3x16384 .f32 := V m c main_arg1
abbrev kpBlock (c : Dev nD) (t : Fin cfg0.N) : Vec F S1x3x256 .f32 := iblk m c 0 t
abbrev pcBlock (c : Dev nD) (t : Fin cfg0.N) : Vec F S1x3x2048 .f32 := iblk m c 1 t

/-- The block indices at point `t`, decided over the grid's 256 points. -/
theorem block_indices : ∀ t : Fin cfg0.N,
    (win0_0.index t 0 = t.val / 32 ∧ win0_0.index t 1 = 0 ∧ win0_0.index t 2 = t.val / 8 % 4)
    ∧ (win0_1.index t 0 = t.val / 32 ∧ win0_1.index t 1 = 0 ∧ win0_1.index t 2 = t.val % 8)
    ∧ (win0_2.index t 0 = t.val / 32 ∧ win0_2.index t 1 = t.val / 8 % 4 ∧ win0_2.index t 2 = 0) :=
  (by decide +kernel : ∀ t : Fin grid0.N,
    (win0_0.index t 0 = t.val / 32 ∧ win0_0.index t 1 = 0 ∧ win0_0.index t 2 = t.val / 8 % 4)
    ∧ (win0_1.index t 0 = t.val / 32 ∧ win0_1.index t 1 = 0 ∧ win0_1.index t 2 = t.val % 8)
    ∧ (win0_2.index t 0 = t.val / 32 ∧ win0_2.index t 1 = t.val / 8 % 4 ∧ win0_2.index t 2 = 0))

/-- Coordinate `k` of keypoint `r` of the keypoint block is that coordinate of keypoint `(t / 8 % 4) · 256 + r` of batch `t / 32`. -/
theorem kpBlock_apply (c : Dev nD) (t : Fin cfg0.N) (k : Fin 3) (r : Fin 256) (b : Fin 8) (j : Fin 1024)
    (hb : b.val = t.val / 32) (hj : j.val = t.val / 8 % 4 * 256 + r.val) :
    kpBlock m c t (ix3 (0 : Fin 1) k r) = kpArr m c (ix3 b k j) := by
  have hi := (block_indices t).1
  unfold kpBlock kpArr iblk
  rw [View.read_apply]
  show V m c main_arg0 _ = V m c main_arg0 _
  congr 1
  funext a
  apply Fin.ext
  match a with
  | ⟨0, _⟩ => show win0_0.index t 0 * 1 + 1 * 0 = b.val; rw [hi.1, hb]; omega
  | ⟨1, _⟩ => show win0_0.index t 1 * 3 + 1 * k.val = k.val; rw [hi.2.1]; omega
  | ⟨2, _⟩ => show win0_0.index t 2 * 256 + 1 * r.val = j.val; rw [hi.2.2, hj]; omega

/-- Coordinate `k` of point `q` of the point block is that coordinate of point `(t % 8) · 2048 + q` of batch `t / 32`. -/
theorem pcBlock_apply (c : Dev nD) (t : Fin cfg0.N) (k : Fin 3) (q : Fin 2048) (b : Fin 8) (n : Fin 16384)
    (hb : b.val = t.val / 32) (hn : n.val = t.val % 8 * 2048 + q.val) :
    pcBlock m c t (ix3 (0 : Fin 1) k q) = pcArr m c (ix3 b k n) := by
  have hi := (block_indices t).2.1
  unfold pcBlock pcArr iblk
  rw [View.read_apply]
  show V m c main_arg1 _ = V m c main_arg1 _
  congr 1
  funext a
  apply Fin.ext
  match a with
  | ⟨0, _⟩ => show win0_1.index t 0 * 1 + 1 * 0 = b.val; rw [hi.1, hb]; omega
  | ⟨1, _⟩ => show win0_1.index t 1 * 3 + 1 * k.val = k.val; rw [hi.2.1]; omega
  | ⟨2, _⟩ => show win0_1.index t 2 * 2048 + 1 * q.val = n.val; rw [hi.2.2, hn]; omega

end Cert.KernelIdeal.Sweep

end
-- ==== Proof.Accum.lean ====
/-
  The running minimum across a sweep.

  Fix a batch `b` and a keypoint `j` of it.  The eight grid points that share the keypoint's tile sweep the
  batch's 16384 points in runs of 2048; after the point that handles run `k` the keypoint's row of the output
  block holds the minimum, over the runs swept so far, of the distance from the keypoint: the first point
  of the sweep starts the row anew, every later one takes the row the point before left.
-/
import proofs.«106802_j3204045603274_1_alg».proof.Proof.Pieces
import proofs.«106802_j3204045603274_1_alg».proof.Proof.Tile
import proofs.«106802_j3204045603274_1_alg».proof.Proof.Blocks
import proofs.«106802_j3204045603274_1_alg».proof.Proof.Spec

noncomputable section

namespace Cert.KernelIdeal.Sweep

open Idealize.ShloMosaic Idealize.ShloMosaic.TcCoe Idealize.ShloMosaic.ValueIdx Idealize.SL.Sem
open Cert.KernelIdeal Cert.KernelIdeal.Gen Cert.NearestPoint

variable (m : (ℓ : Loc nD τ sig) → Buf (Elt Ideal) ℓ)

/-- The distances from keypoint `j` of batch `b` to the 16384 points of that batch. -/
def dists (c : Dev nD) (b : Fin 8) (j : Fin 1024) : Fin 16384 → EReal :=
  fun n => pointDist (fun k => kpArr m c (ix3 b k j)) (fun k => pcArr m c (ix3 b k n))

/-- The row minimum a point computes from its two blocks is the minimum of the keypoint's distances over the
    point's run. -/
theorem tile_run (c : Dev nD) (t : Fin cfg0.N) (r : Fin 256) (b : Fin 8) (j : Fin 1024)
    (hb : b.val = t.val / 32) (hj : j.val = t.val / 8 % 4 * 256 + r.val) (hk : t.val % 8 < 8) :
    ((Finset.univ : Finset (Fin 2048)).fold min start fun q =>
        pointDist (fun k => kpBlock m c t (ix3 (0 : Fin 1) k r)) (fun k => pcBlock m c t (ix3 (0 : Fin 1) k q)))
      = run (dists m c b j) (t.val % 8) hk := by
  unfold run dists
  refine congrArg (fun f => (Finset.univ : Finset (Fin 2048)).fold min start f) (funext fun q => ?_)
  exact congrArg₂ pointDist (funext fun k => kpBlock_apply m c t k r b j hb hj)
    (funext fun k => pcBlock_apply m c t k q b (inRun (t.val % 8) hk q) hb (inRun_val _ hk q))

/-- The first point of a sweep leaves the first run's minimum against the start value. -/
theorem first_point (c : Dev nD) (t : Fin cfg0.N) (h0 : t.val % 8 = 0) (r : Fin 256) (b : Fin 8) (j : Fin 1024)
    (hb : b.val = t.val / 32) (hj : j.val = t.val / 8 % 4 * 256 + r.val) (hk : t.val % 8 < 8) :
    outsAt0 m c t.val t.isLt (ix3 (0 : Fin 1) r (0 : Fin 1)) = upTo (dists m c b j) (t.val % 8) hk := by
  rw [outsAt0_A m c t h0]
  refine (congrFun (left_first (F := Ideal) c (grid0.coords t) (ms0_0 t) (hs0_0 t) (ms0_1 t) (hs0_1 t) (ms0_2 t) (hs0_2 t)
    ((hcond0_0 t).mpr h0) (kpBlock m c t) (pcBlock m c t)) (ix3 (0 : Fin 1) r (0 : Fin 1))).trans ?_
  refine (stored_apply (kpBlock m c t) (pcBlock m c t) (k0_pay1 (F := Ideal)) r).trans ?_
  rw [fill_apply, tile_run m c t r b j hb hj hk]
  exact (upTo_first _ _ hk h0).symm

/-- A later point of a sweep leaves what the point before left against its own run's minimum. -/
theorem later_point (c : Dev nD) (t : Fin cfg0.N) (h0 : ¬t.val % 8 = 0) (r : Fin 256) (b : Fin 8) (j : Fin 1024)
    (hb : b.val = t.val / 32) (hj : j.val = t.val / 8 % 4 * 256 + r.val) (hk : t.val % 8 < 8) (hk' : (t.val - 1) % 8 < 8)
    (ih : outsAt0 m c (t.val - 1) (Nat.lt_of_le_of_lt (Nat.sub_le _ _) t.isLt) (ix3 (0 : Fin 1) r (0 : Fin 1))
      = upTo (dists m c b j) ((t.val - 1) % 8) hk') :
    outsAt0 m c t.val t.isLt (ix3 (0 : Fin 1) r (0 : Fin 1)) = upTo (dists m c b j) (t.val % 8) hk := by
  rw [outsAt0_B m c t h0]
  refine (congrFun (left_inside (F := Ideal) c (grid0.coords t) (ms0_0 t) (hs0_0 t) (ms0_1 t) (hs0_1 t) (ms0_2 t) (hs0_2 t)
    (fun h => h0 ((hcond0_0 t).mp h)) (kpBlock m c t) (pcBlock m c t)
    (outsAt0 m c (t.val - 1) (Nat.lt_of_le_of_lt (Nat.sub_le _ _) t.isLt))) (ix3 (0 : Fin 1) r (0 : Fin 1))).trans ?_
  refine (stored_apply (kpBlock m c t) (pcBlock m c t)
    (outsAt0 m c (t.val - 1) (Nat.lt_of_le_of_lt (Nat.sub_le _ _) t.isLt)) r).trans ?_
  rw [ih, tile_run m c t r b j hb hj hk]
  exact (upTo_next _ ((t.val - 1) % 8) (t.val % 8) hk' hk (by omega)).symm

/-- After point `n` the row of keypoint `j` holds the minimum over runs `0` to `n % 8`. -/
theorem swept (c : Dev nD) : ∀ (n : ℕ) (h : n < cfg0.N) (r : Fin 256) (b : Fin 8) (j : Fin 1024)
    (hb : b.val = n / 32) (hj : j.val = n / 8 % 4 * 256 + r.val) (hk : n % 8 < 8),
    outsAt0 m c n h (ix3 (0 : Fin 1) r (0 : Fin 1)) = upTo (dists m c b j) (n % 8) hk
  | 0, h, r, b, j, hb, hj, hk => first_point m c ⟨0, h⟩ rfl r b j hb hj hk
  | n + 1, h, r, b, j, hb, hj, hk => by
    by_cases h0 : (n + 1) % 8 = 0
    · exact first_point m c ⟨n + 1, h⟩ h0 r b j hb hj hk
    · exact later_point m c ⟨n + 1, h⟩ h0 r b j hb hj hk (Nat.mod_lt _ (by decide))
        (swept c n (Nat.lt_of_succ_lt h) r b j (by omega) (by omega) (Nat.mod_lt _ (by decide)))

end Cert.KernelIdeal.Sweep

end
-- ==== Proof.KernelValue.lean ====
/-
  What the kernel's program returns.

  The region leaves, at keypoint `j` of batch `b`, the distance to the nearest of the batch's 16384 points:
  the last point of the keypoint's sweep writes the block back, and the 32 blocks written back tile the
  array.  The lines after the region drop the trailing unit axis, sum the 8 · 1024 entries from zero and
  divide by 8192.
-/
import proofs.«106802_j3204045603274_1_alg».proof.Proof.Accum
import Idealize.ShloMosaic.Lib.Pipeline.Value
import Idealize.ShloMosaic.Lib.StableHlo.Run
import Idealize.ShloMosaic.Lib.Tactic

noncomputable section

namespace Cert.KernelIdeal.Sweep

open Idealize.ShloMosaic Idealize.ShloMosaic.TcCoe Idealize.ShloMosaic.ValueIdx Idealize.SL.Sem
open Idealize.ShloMosaic.Pipeline (Dat)
open Cert.KernelIdeal Cert.KernelIdeal.Gen Cert.NearestPoint

variable (m : (ℓ : Loc nD τ sig) → Buf (Elt Ideal) ℓ) (ρ : Dev nD → PrngReg)

/-- The distance from keypoint `j` of batch `b` to the nearest point of the batch. -/
abbrev nearestAt (c : Dev nD) (b : Fin 8) (j : Fin 1024) : EReal :=
  (Finset.univ : Finset (Fin 16384)).fold min start (dists m c b j)

/-- The array of nearest distances, with its trailing unit axis. -/
abbrev nearest (c : Dev nD) : Vec Ideal S8x1024x1 .f32 := fun i => nearestAt m c (i 0) (i 1)

set_option maxRecDepth 1000000 in
/-- What the last point of a sweep writes back is its block of the nearest distances. -/
theorem flushed_eq (c : Dev nD) (t : Fin cfg0.N) (hf : (cfg0.win 2).flush t = true) :
    (dats m 0 c).flushed 2 t = ((cfg0.win 2).blk t).view.read (Elt Ideal) (nearest m c) := by
  have h7 : t.val % 8 = 7 := (flush0_2 t).mp hf
  have hN : t.val < 256 := lt_of_lt_of_eq t.isLt (show cfg0.N = 256 from N_0)
  have hi := (block_indices t).2.2
  show (cfg0.win 2).cut (grid0.coords t) ((dats m 0 c).after 2 t) = _
  rw [after0_2]
  funext y
  rw [View.read_apply]
  have h0 : (y 0).val < 1 := (y 0).isLt
  have h1 : (y 1).val < 256 := (y 1).isLt
  have h2 : (y 2).val < 1 := (y 2).isLt
  have ey : (cfg0.win 2).xinj (grid0.coords t) y = ix3 (0 : Fin 1) (⟨(y 1).val, h1⟩ : Fin 256) (0 : Fin 1) :=
    funext fun a => Fin.ext (by
      match a with
      | ⟨0, _⟩ => show (y 0).val = 0; omega
      | ⟨1, _⟩ => rfl
      | ⟨2, _⟩ => show (y 2).val = 0; omega)
  have hb8 : t.val / 32 < 8 := by omega
  have hj : t.val / 8 % 4 * 256 + (y 1).val < 1024 := by omega
  refine (congrArg (outsAt0 m c t.val t.isLt) ey).trans ?_
  refine (swept m c t.val t.isLt ⟨(y 1).val, h1⟩ ⟨t.val / 32, hb8⟩ ⟨t.val / 8 % 4 * 256 + (y 1).val, hj⟩ rfl rfl
    (Nat.mod_lt _ (by decide))).trans ?_
  refine (upTo_last _ _ _ h7).trans ?_
  refine congrArg₂ (fun b j => (Finset.univ : Finset (Fin 16384)).fold min start (dists m c b j)) (Fin.ext ?_) (Fin.ext ?_)
  · show t.val / 32 = win0_2.index t 0 * 1 + 1 * (y 0).val
    rw [hi.1]; omega
  · show t.val / 8 % 4 * 256 + (y 1).val = win0_2.index t 1 * 256 + 1 * (y 1).val
    rw [hi.2.1]; omega

/-- An entry lies in point `t`'s output block exactly when each of its coordinates lies in the block's range. -/
theorem mem_block (t : Fin cfg0.N) (i : S8x1024x1.Idx) :
    i ∈ ((cfg0.win 2).blk t).view.set ↔ ∀ a : Fin 3, win0_2.index t a * S1x256x1.size a ≤ (i a).val
      ∧ (i a).val < win0_2.index t a * S1x256x1.size a + S1x256x1.size a := by
  show i ∈ ((View.whole main_v0).slice (win0_2.rect t)).set ↔ _
  rw [View.set_slice_whole, Rect.mem_set_unit]
  exact Iff.rfl

/-- Every entry (b, j, 0) lies in the block written back by the last point of the sweep of batch `b` and
    keypoint tile `j / 256`. -/
theorem covered (i : S8x1024x1.Idx) :
    ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 1 := (i 2).isLt
  have hN : cfg0.N = 256 := N_0
  obtain ⟨t, tv⟩ : ∃ t : Fin cfg0.N, t.val = 32 * (i 0).val + 8 * ((i 1).val / 256) + 7 :=
    ⟨⟨32 * (i 0).val + 8 * ((i 1).val / 256) + 7, by rw [hN]; omega⟩, rfl⟩
  have hi := (block_indices t).2.2
  refine ⟨t, (flush0_2 t).mpr (by omega), ?_⟩
  rw [mem_block]
  intro a
  match a with
  | ⟨0, _⟩ =>
    show win0_2.index t 0 * 1 ≤ (i 0).val ∧ (i 0).val < win0_2.index t 0 * 1 + 1
    rw [hi.1]; omega
  | ⟨1, _⟩ =>
    show win0_2.index t 1 * 256 ≤ (i 1).val ∧ (i 1).val < win0_2.index t 1 * 256 + 256
    rw [hi.2.1]; omega
  | ⟨2, _⟩ =>
    show win0_2.index t 2 * 1 ≤ (i 2).val ∧ (i 2).val < win0_2.index t 2 * 1 + 1
    rw [hi.2.2]; omega

/-- The region leaves the array of nearest distances. -/
theorem region_result (c : Dev nD) : (dats m 0 c).arrAt 2 cfg0.N = nearest m c :=
  (dats m 0 c).arrAt_eq_of_cover 2 (nearest m c) (flushed_eq m c) covered

/-- The mean of an [8, 1024] array as the lines after the region take it: the sum of all entries from zero,
    divided by 8192. -/
def meanOf (x : Vec Ideal S8x1024 .f32) : Vec Ideal S_ .f32 :=
  Host.divf (F := Ideal) (Host.reduceAdd (F := Ideal) x (constant (F := Ideal) S_ .f32 0x00000000#32) reducesTo_S8x1024_S_d0_1 h_S_)
    (constant (F := Ideal) S_ .f32 0x46000000#32)

/-- The program's result after the lines that follow the region. -/
theorem tail_eq (c : Dev nD) :
    Pipeline.afterTail₀ cfgs (dats m) 0 (V0 m) [hostOps1] c main_v3
      = meanOf (shapeCast S8x1024 (nearest m c) shapeCasts_S8x1024x1_S8x1024) := by
  unfold Pipeline.afterTail₀
  show StableHlo.after hostOps1 _ (Proc.devRef .tc main_v3) = _
  after_results
  have e := (Pipeline.withArrays_arr spec0 launch0.win.arr_inj c (V0 m c) (fun w => (dats m 0 c).arrAt w (cfgs 0).N) 2).trans
    (region_result m c)
  rw [e]
  rfl

/-- The run, read: the result at the mean of the nearest distances, the arguments unchanged. -/
theorem run : θ_run defs (onTc (τ := τ) (main (F := Ideal))) ⟨m, fun _ => 0, ρ⟩ fun r => ∀ c : Dev nD,
      r.2.mem ((c : Thread nD τ).loc main_v3) = meanOf (shapeCast S8x1024 (nearest m c) shapeCasts_S8x1024x1_S8x1024)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Sweep

end
-- ==== Proof.RefValue.lean ====
/-
  What the reference computes, read at an index.

  The reference forms, for every batch `b`, keypoint `j` and point `n`, the same clamped root of
  |a|² + |p|² − 2·(a·p) — its sums along the coordinate axis start from the zero word, which adds nothing —
  and takes, for every `b` and `j`, the minimum over all 16384 points from the same start value.
-/
import proofs.«106802_j3204045603274_1_alg».proof.Proof.Gen.ReferenceIdeal.Read
import proofs.«106802_j3204045603274_1_alg».proof.Proof.Spec
import Idealize.ShloMosaic.Lib.ValueIdx
import Idealize.ShloMosaic.PureOps.Ideal.Laws

noncomputable section

namespace Cert.ReferenceIdeal.Nearest

open Idealize.ShloMosaic Idealize.ShloMosaic.ValueIdx
open Cert.ReferenceIdeal Cert.ReferenceIdeal.Gen Cert.ReferenceIdeal.Read Cert.NearestPoint

/-! ## Where each stage reads its operands -/

theorem kp_sq_idx (b : Fin 8) (j : Fin 1024) (n : Fin 16384) (k : Fin 3) :
    idx_main_v1 (idx_main_v5 (idx_main_v7 (ix3 b j n))) k = ix3 b k j :=
  funext fun a => Fin.ext (by match a with | ⟨0, _⟩ => rfl | ⟨1, _⟩ => rfl | ⟨2, _⟩ => rfl)
theorem pc_sq_idx (b : Fin 8) (j : Fin 1024) (n : Fin 16384) (k : Fin 3) :
    idx_main_v3 (idx_main_v6 (idx_main_v8 (ix3 b j n))) k = ix3 b k n :=
  funext fun a => Fin.ext (by match a with | ⟨0, _⟩ => rfl | ⟨1, _⟩ => rfl | ⟨2, _⟩ => rfl)
theorem kp_dot_idx (b : Fin 8) (j : Fin 1024) (n : Fin 16384) (k : Fin 3) :
    lidx_main_v4 (ix3 b j n) k = ix3 b k j :=
  funext fun a => Fin.ext (by match a with | ⟨0, _⟩ => rfl | ⟨1, _⟩ => rfl | ⟨2, _⟩ => rfl)
theorem pc_dot_idx (b : Fin 8) (j : Fin 1024) (n : Fin 16384) (k : Fin 3) :
    ridx_main_v4 (ix3 b j n) k = ix3 b k n :=
  funext fun a => Fin.ext (by match a with | ⟨0, _⟩ => rfl | ⟨1, _⟩ => rfl | ⟨2, _⟩ => rfl)

/-- The root stage at (b, j, n) is the distance of keypoint `j` and point `n` of batch `b`. -/
theorem root_apply (x0 : (⟨S8x3x1024, .f32⟩ : BufTy).Contents (Elt Ideal)) (x1 : (⟨S8x3x16384, .f32⟩ : BufTy).Contents (Elt Ideal))
    (b : Fin 8) (j : Fin 1024) (n : Fin 16384) :
    val_main_v15 (F := Ideal) x0 x1 (ix3 b j n)
      = pointDist (fun k => x0 (ix3 b k j)) (fun k => x1 (ix3 b k n)) := by
  rw [val_main_v15_apply, val_main_v14_apply, val_main_v12_apply, val_main_v9_apply, val_main_v11_apply,
    val_main_v7_apply, val_main_v8_apply, val_main_v5_apply, val_main_v6_apply, val_main_v1_apply, val_main_v3_apply,
    val_main_v4_apply, val_main_v10_apply, val_main_v13_apply]
  unfold pointDist
  simp only [val_main_v0_apply, val_main_v2_apply, val_main_cst_apply, val_main_cst_0_apply, val_main_cst_1_apply,
    val_main_cst_2_apply, kp_sq_idx, pc_sq_idx, kp_dot_idx, pc_dot_idx, Ideal.hostUnary_sqrt_def, Ideal.maximumf_def,
    Ideal.subf_def, Ideal.addf_def, Ideal.mulf_def, Ideal.ofBits_def, Ideal.ofBits_zero_f32, zero_add]

/-- The minimum stage at (b, j): the minimum over the batch's points of the distance from keypoint `j`. -/
theorem nearest_apply (x0 : (⟨S8x3x1024, .f32⟩ : BufTy).Contents (Elt Ideal)) (x1 : (⟨S8x3x16384, .f32⟩ : BufTy).Contents (Elt Ideal))
    (b : Fin 8) (j : Fin 1024) :
    val_main_v16 (F := Ideal) x0 x1 (ix2 b j)
      = (Finset.univ : Finset (Fin 16384)).fold min start fun n =>
          pointDist (fun k => x0 (ix3 b k j)) (fun k => x1 (ix3 b k n)) := by
  unfold val_main_v16
  rw [Host.reduce_eq_fold_single FloatOps.minimumf _ _ reducesTo_S8x1024x16384_S8x1024_d2
    (by decide : S8x1024x16384.Reduces [2] S8x1024) h_S_ (ix2 b j)]
  refine congrArg (fun f => (Finset.univ : Finset (Fin 16384)).fold min start f) (funext fun n => ?_)
  refine Eq.trans (congrArg (val_main_v15 (F := Ideal) x0 x1) ?_) (root_apply x0 x1 b j n)
  exact funext fun a => Fin.ext (by match a with | ⟨0, _⟩ => rfl | ⟨1, _⟩ => rfl | ⟨2, _⟩ => rfl)

end Cert.ReferenceIdeal.Nearest

end
-- ==== Proof.LibTrailingUnit.lean ====
/-
  A trailing unit axis dropped by a shape cast, read at an index given by coordinates.
-/
import Idealize.ShloMosaic.Lib.ValueIdx
import Idealize.ShloMosaic.Lib.Pipeline.Value

namespace Cert.TrailingUnit

open Idealize.ShloMosaic Idealize.ShloMosaic.ValueIdx

variable {α : Type}

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Cert.TrailingUnit
-- ==== Proof.lean ====
/-
  The kernel sweeps, for every batch and every tile of 256 keypoints, the batch's 16384 points in eight
  tiles of 2048, keeping in its output block the running minimum of the distance from each keypoint to
  the points swept so far; the distance is the root of |a|² + |p|² − 2·(a·p), clamped at zero, the three
  squares and the three products summed over the coordinate axis.  The reference forms the same distance
  for every keypoint and point at once and takes the minimum over all points in one reduction.  Both then
  sum the 8 · 1024 minima from zero and divide by 8192.

  On the extended reals the two results are one number: a minimum does not depend on how its arguments
  are grouped or ordered, so the eight-tile running minimum is the minimum over all points (no finiteness
  of the inputs is used); the sums along the coordinate axis are the same three terms, the reference's
  starting from a zero that adds nothing; the change of float format before the kernel's matrix product is
  the identity.  No operation of the kernel was rewritten for its idealization, so that conjunct holds trivially.
-/
import proofs.«106802_j3204045603274_1_alg».proof.Defs
import proofs.«106802_j3204045603274_1_alg».proof.Proof.Gen.Kernel
import proofs.«106802_j3204045603274_1_alg».proof.Proof.Gen.Kernel.Skeleton
import proofs.«106802_j3204045603274_1_alg».proof.Proof.Gen.Kernel.Launch
import proofs.«106802_j3204045603274_1_alg».proof.Proof.Gen.Kernel.Points
import proofs.«106802_j3204045603274_1_alg».proof.Proof.Gen.Kernel.Frame
import proofs.«106802_j3204045603274_1_alg».proof.Proof.Gen.KernelIdeal
import proofs.«106802_j3204045603274_1_alg».proof.Proof.Gen.KernelIdeal.Skeleton
import proofs.«106802_j3204045603274_1_alg».proof.Proof.Gen.KernelIdeal.Launch
import proofs.«106802_j3204045603274_1_alg».proof.Proof.Gen.KernelIdeal.Points
import proofs.«106802_j3204045603274_1_alg».proof.Proof.Gen.KernelIdeal.Frame
import proofs.«106802_j3204045603274_1_alg».proof.Proof.Gen.ReferenceIdeal
import proofs.«106802_j3204045603274_1_alg».proof.Proof.Gen.Pre_finite_inputs
import proofs.«106802_j3204045603274_1_alg».proof.Proof.Gen.ReferenceIdeal.Run
import proofs.«106802_j3204045603274_1_alg».proof.Proof.Gen.ReferenceIdeal.Read
import proofs.«106802_j3204045603274_1_alg».proof.Proof.KernelValue
import proofs.«106802_j3204045603274_1_alg».proof.Proof.RefValue
import proofs.«106802_j3204045603274_1_alg».proof.Proof.LibTrailingUnit
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel's array of nearest distances, its unit axis dropped, is the reference's minimum stage of the
    same arguments: at (b, j) both are the minimum over the batch's points of the distance from keypoint `j`. -/
theorem nearest_eq (m : (ℓ : Loc Cert.KernelIdeal.nD Cert.KernelIdeal.τ Cert.KernelIdeal.sig) → Buf (Elt Ideal) ℓ)
    (c : Dev Cert.KernelIdeal.nD) :
    shapeCast Cert.KernelIdeal.S8x1024 (Cert.KernelIdeal.Sweep.nearest m c) Cert.KernelIdeal.Gen.shapeCasts_S8x1024x1_S8x1024
      = Cert.ReferenceIdeal.Read.val_main_v16 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨b, j, rfl⟩ : ∃ (b : Fin 8) (j : Fin 1024), i = ix2 b j := ⟨i 0, i 1, eq_ix2 i⟩
  refine (Cert.TrailingUnit.shapeCast_ab1_ab_apply _ _ b j).trans ?_
  refine Eq.trans ?_ (Cert.ReferenceIdeal.Nearest.nearest_apply _ _ b j).symm
  rfl

/-- The reference's result of the kernel's arguments is the mean of the kernel's nearest distances. -/
theorem mean_eq (m : (ℓ : Loc Cert.KernelIdeal.nD Cert.KernelIdeal.τ Cert.KernelIdeal.sig) → Buf (Elt Ideal) ℓ)
    (c : Dev Cert.KernelIdeal.nD) :
    Cert.ReferenceIdeal.Read.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Sweep.meanOf
          (shapeCast Cert.KernelIdeal.S8x1024 (Cert.KernelIdeal.Sweep.nearest m c) Cert.KernelIdeal.Gen.shapeCasts_S8x1024x1_S8x1024) := by
  rw [nearest_eq m c]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for its idealization. -/
theorem preserves : Cert.preserves_Kernel_KernelIdeal := trivial

/-- From memories that agree on the arguments both programs end at the mean of the nearest distances. -/
theorem algebraic : Cert.algebraic_KernelIdeal_ReferenceIdeal := by
  intro m ρ m' ρ' _ hagree
  refine ⟨_, Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v18_eq]
  exact mean_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
